-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x4096 : Shape := ⟨2, ![2048, 4096]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048x4096 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x2048 .f32) (main_arg1 : FVec F S4096x2048 .f32) (main_arg2 : FVec F S4096x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S4096x2048 : Shape := ⟨2, ![4096, 2048]⟩
abbrev S2048x4096 : Shape := ⟨2, ![2048, 4096]⟩
abbrev S2048 : Shape := ⟨1, ![2048]⟩
abbrev S4096x4096 : Shape := ⟨2, ![4096, 4096]⟩
abbrev S1x2048 : Shape := ⟨2, ![1, 2048]⟩
abbrev S512x4096 : Shape := ⟨2, ![512, 4096]⟩
abbrev S256x4096 : Shape := ⟨2, ![256, 4096]⟩
abbrev S1x256 : Shape := ⟨2, ![1, 256]⟩
abbrev S512x256 : Shape := ⟨2, ![512, 256]⟩
abbrev S4096x256 : Shape := ⟨2, ![4096, 256]⟩

abbrev nBuf : Space → Nat
  | .hbm => 23
  | .vmem => 24
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x4096, .f32⟩
  | .hbm, ⟨12, _⟩ => ⟨S4096x4096, .bf16⟩
  | .hbm, ⟨13, _⟩ => ⟨S2048x4096, .bf16⟩
  | .hbm, ⟨14, _⟩ => ⟨S2048x4096, .bf16⟩
  | .hbm, ⟨15, _⟩ => ⟨S2048x4096, .bf16⟩
  | .hbm, ⟨16, _⟩ => ⟨S2048x4096, .bf16⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S4096x2048, .f32⟩
  | .hbm, ⟨22, _⟩ => ⟨S4096x2048, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S256x4096, .bf16⟩
  | .local _ .vmem, ⟨9, _⟩ => ⟨S256x4096, .bf16⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  concatenates_S4096x2048_S4096x2048_S4096x4096_d1 : Shape.Concatenates [S4096x2048, S4096x2048] S4096x4096 1
  bitsLt_bf16_f32 : FTy.bits .bf16 < FTy.bits .f32
  shapeCasts_S2048_S1x2048 : S2048.ShapeCasts S1x2048
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  transposes_S256x4096_p1_0_S4096x256 : S256x4096.Transposes [1, 0] S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S2048x4096.size a
  hwx0_1 : ∀ i : grid0.Coords, EltTy.bits .bf16 = 32 ∨ (Rect.block (s := S2048x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S2048x4096.size a
  hwx0_2 : ∀ i : grid0.Coords, EltTy.bits .bf16 = 32 ∨ (Rect.block (s := S2048x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S2048x4096.size a
  hwx0_3 : ∀ i : grid0.Coords, EltTy.bits .bf16 = 32 ∨ (Rect.block (s := S2048x4096) S256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S2048x4096.size a
  hwx0_4 : ∀ i : grid0.Coords, EltTy.bits .bf16 = 32 ∨ (Rect.block (s := S2048x4096) S256x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x2048.size a
  hwx0_7 : ∀ i : grid0.Coords, EltTy.bits .f32 = 32 ∨ (Rect.block (s := S1x2048) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x2048.size a
  hwx0_8 : ∀ i : grid0.Coords, EltTy.bits .f32 = 32 ∨ (Rect.block (s := S1x2048) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S4096x2048.size a
  hwx0_9 : ∀ i : grid0.Coords, EltTy.bits .f32 = 32 ∨ (Rect.block (s := S4096x2048) S512x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S4096x2048.size a
  hwx0_10 : ∀ i : grid0.Coords, EltTy.bits .f32 = 32 ∨ (Rect.block (s := S4096x2048) S512x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x256.size a ≤ S4096x2048.size a
  hwx0_11 : ∀ i : grid0.Coords, EltTy.bits .f32 = 32 ∨ (Rect.block (s := S4096x2048) S512x256.size (cc0_transform_11 i) (hinb0_11 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S512x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_0) S512x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10_1) S512x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x4096 : Shape := ⟨2, ![2048, 4096]⟩
abbrev S2048 : Shape := ⟨1, ![2048]⟩
abbrev S4096x4096 : Shape := ⟨2, ![4096, 4096]⟩
abbrev S8192x4096 : Shape := ⟨2, ![8192, 4096]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x4096, .f32⟩
  | .hbm, ⟨12, _⟩ => ⟨S8192x4096, .f32⟩
  | .hbm, ⟨13, _⟩ => ⟨S8192, .f32⟩
  | .hbm, ⟨14, _⟩ => ⟨S4096x8192, .f32⟩
  | .hbm, ⟨15, _⟩ => ⟨S4096x8192, .f32⟩
  | .hbm, ⟨16, _⟩ => ⟨S1x8192, .f32⟩
  | .hbm, ⟨17, _⟩ => ⟨S4096x8192, .f32⟩
  | .hbm, ⟨18, _⟩ => ⟨S4096x8192, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S4096x2048_S4096x2048_S4096x4096_d1 : Shape.Concatenates [S4096x2048, S4096x2048] S4096x4096 1
  concatenates_S2048x4096_S2048x4096_S2048x4096_S2048x4096_S8192x4096_d0 : Shape.Concatenates [S2048x4096, S2048x4096, S2048x4096, S2048x4096] S8192x4096 0
  concatenates_S2048_S2048_S2048_S2048_S8192_d0 : Shape.Concatenates [S2048, S2048, S2048, S2048] S8192 0
  transposes_S8192x4096_S4096x8192_1_0 : S8192x4096.Transposes [1, 0] S4096x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.CellSpec.lean ====
/-
  One step of an LSTM cell over the extended reals, entry by entry.

  With `[h | x]` the row-wise join of the previous hidden state `h` and the input `x` (4096 rows of
  2048 + 2048 entries), each of the four gates has the pre-activation
      z(r, j) = Σ_k [h | x](r, k) · W(j, k) + b(j)          (W : 2048 × 4096, b : 2048),
  and the step is
      c'(r, j) = σ(z_f) · c(r, j) + σ(z_i) · tanh(z_g),      h'(r, j) = σ(z_o) · tanh(c'(r, j)),
  with σ the logistic function. Both programs are shown to compute exactly these two arrays.
-/
import Idealize.ShloMosaic.PureOps.Ideal
import Idealize.ShloMosaic.Lib.ValueIdx

noncomputable section

namespace Cert.CellSpec

open Idealize.ShloMosaic Idealize.ShloMosaic.ValueIdx

/-- A 4096 × 2048 array of extended reals: the input, the hidden state, the cell state. -/
abbrev Act : Type := (⟨2, ![4096, 2048]⟩ : Shape).Idx → EReal
/-- A gate's 2048 × 4096 weight matrix. -/
abbrev Wgt : Type := (⟨2, ![2048, 4096]⟩ : Shape).Idx → EReal
/-- A gate's bias, 2048 entries. -/
abbrev Bias : Type := (⟨1, ![2048]⟩ : Shape).Idx → EReal

/-- Row `r` of `[h | x]` at column `k`: `h` on the first 2048 columns, `x` on the last 2048. -/
def joined (h x : Act) (r k : Fin 4096) : EReal :=
  if hk : k.val < 2048 then h (ix2 r ⟨k.val, hk⟩) else x (ix2 r ⟨k.val - 2048, by have := k.isLt; omega⟩)

/-- A gate's pre-activation at row `r`, unit `j`: the row of `[h | x]` against row `j` of the weights, plus the bias. -/
def gate (h x : Act) (W : Wgt) (b : Bias) (r : Fin 4096) (j : Fin 2048) : EReal :=
  (∑ k : Fin 4096, joined h x r k * W (ix2 j k)) + b (ix1 j)

/-- The new cell state: forget gate times the old state plus input gate times the candidate. -/
def cellAt (x h c : Act) (Wf : Wgt) (bf : Bias) (Wi : Wgt) (bi : Bias) (Wg : Wgt) (bg : Bias)
    (r : Fin 4096) (j : Fin 2048) : EReal :=
  Ideal.logistic (gate h x Wf bf r j) * c (ix2 r j) + Ideal.logistic (gate h x Wi bi r j) * Ideal.tanh (gate h x Wg bg r j)

/-- The new hidden state: output gate times `tanh` of the new cell state. -/
def hiddenAt (x h c : Act) (Wf : Wgt) (bf : Bias) (Wi : Wgt) (bi : Bias) (Wg : Wgt) (bg : Bias) (Wo : Wgt) (bo : Bias)
    (r : Fin 4096) (j : Fin 2048) : EReal :=
  Ideal.logistic (gate h x Wo bo r j) * Ideal.tanh (cellAt x h c Wf bf Wi bi Wg bg r j)

/-- The new cell state as an array. -/
def cellNext (x h c : Act) (Wf : Wgt) (bf : Bias) (Wi : Wgt) (bi : Bias) (Wg : Wgt) (bg : Bias) : Act :=
  fun i => cellAt x h c Wf bf Wi bi Wg bg (i 0) (i 1)

/-- The new hidden state as an array. -/
def hiddenNext (x h c : Act) (Wf : Wgt) (bf : Bias) (Wi : Wgt) (bi : Bias) (Wg : Wgt) (bg : Bias) (Wo : Wgt) (bo : Bias) : Act :=
  fun i => hiddenAt x h c Wf bf Wi bi Wg bg Wo bo (i 0) (i 1)

end Cert.CellSpec

end
-- ==== Proof.StagedArrays.lean ====
/-
  What the kernel's windows stage, in terms of the program's arguments.

  Before the region the host joins `h` and `x` row by row into a 4096 × 4096 array, narrows it and the four
  weight matrices to bf16 — no change of value over the extended reals — and views each bias as one row of 2048.
  So the first window's array is `[h | x]`, the next four are the weight matrices themselves, and the four
  bias windows hold the biases as rows.
-/
import proofs.«107117_j34626026341075_1_alg».proof.Proof.Gen.KernelIdeal.Frame
import proofs.«107117_j34626026341075_1_alg».proof.Proof.CellSpec
import Idealize.ShloMosaic.Lib.StableHlo.Run
import Idealize.ShloMosaic.Lib.Pipeline.Value
import Idealize.ShloMosaic.Lib.ValueLayout

noncomputable section

namespace Cert.KernelIdeal.Staged

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The arguments as launched, by their roles. -/
abbrev argX (c : Dev nD) : CellSpec.Act := m ((c : Thread nD τ).loc main_arg0)
abbrev argH (c : Dev nD) : CellSpec.Act := m ((c : Thread nD τ).loc main_arg1)
abbrev argC (c : Dev nD) : CellSpec.Act := m ((c : Thread nD τ).loc main_arg2)
abbrev argWf (c : Dev nD) : CellSpec.Wgt := m ((c : Thread nD τ).loc main_arg3)
abbrev argBf (c : Dev nD) : CellSpec.Bias := m ((c : Thread nD τ).loc main_arg4)
abbrev argWi (c : Dev nD) : CellSpec.Wgt := m ((c : Thread nD τ).loc main_arg5)
abbrev argBi (c : Dev nD) : CellSpec.Bias := m ((c : Thread nD τ).loc main_arg6)
abbrev argWg (c : Dev nD) : CellSpec.Wgt := m ((c : Thread nD τ).loc main_arg7)
abbrev argBg (c : Dev nD) : CellSpec.Bias := m ((c : Thread nD τ).loc main_arg8)
abbrev argWo (c : Dev nD) : CellSpec.Wgt := m ((c : Thread nD τ).loc main_arg9)
abbrev argBo (c : Dev nD) : CellSpec.Bias := m ((c : Thread nD τ).loc main_arg10)

/-- The joined array the first window stages is the concatenation of `h` and `x` along the columns. -/
theorem joined_arr (c : Dev nD) : (V m c main_v1 : S4096x4096.Idx → EReal)
    = concatenate S4096x4096 1 [⟨S4096x2048, argH m c⟩, ⟨S4096x2048, argX m c⟩] Facts₀.concatenates_S4096x2048_S4096x2048_S4096x4096_d1 := by
  dsimp only [Gen.V, Gen.hostOps0]; after_results; rfl

/-- Entry `(r, k)` of it is `[h | x](r, k)`. -/
theorem joined_at (c : Dev nD) (r k : Fin 4096) :
    (V m c main_v1 : S4096x4096.Idx → EReal) (ix2 r k) = CellSpec.joined (argH m c) (argX m c) r k := by
  rw [joined_arr]
  unfold CellSpec.joined
  split
  · next hk =>
    exact concatenate_pair_apply_left (t := S4096x4096) (s₁ := S4096x2048) (s₂ := S4096x2048) (1 : Fin 2) _ _ _ (ix2 r k) rfl
      (ix2 r (⟨k.val, hk⟩ : Fin 2048) : S4096x2048.Idx) (fun b => match b with | ⟨0, _⟩ => rfl | ⟨1, _⟩ => rfl)
  · next hk =>
    exact concatenate_pair_apply_right (t := S4096x4096) (s₁ := S4096x2048) (s₂ := S4096x2048) (1 : Fin 2) _ _ _ (ix2 r k) rfl rfl
      (ix2 r (⟨k.val - 2048, by have := k.isLt; omega⟩ : Fin 2048) : S4096x2048.Idx)
      (fun b hb => match b with | ⟨0, _⟩ => rfl | ⟨1, _⟩ => absurd rfl hb)
      (by show (k.val - 2048) + 2048 = k.val; omega)

/-- The staged weight arrays are the weight arguments. -/
theorem wf_arr (c : Dev nD) : (V m c main_v2 : S2048x4096.Idx → EReal) = argWf m c := by
  dsimp only [Gen.V, Gen.hostOps0]; after_results; rfl
theorem wi_arr (c : Dev nD) : (V m c main_v3 : S2048x4096.Idx → EReal) = argWi m c := by
  dsimp only [Gen.V, Gen.hostOps0]; after_results; rfl
theorem wg_arr (c : Dev nD) : (V m c main_v4 : S2048x4096.Idx → EReal) = argWg m c := by
  dsimp only [Gen.V, Gen.hostOps0]; after_results; rfl
theorem wo_arr (c : Dev nD) : (V m c main_v5 : S2048x4096.Idx → EReal) = argWo m c := by
  dsimp only [Gen.V, Gen.hostOps0]; after_results; rfl

/-- The staged bias rows are the bias arguments viewed as one row. -/
theorem bf_arr (c : Dev nD) : (V m c main_v6 : S1x2048.Idx → EReal) = shapeCast S1x2048 (argBf m c) Facts₀.shapeCasts_S2048_S1x2048 := by
  dsimp only [Gen.V, Gen.hostOps0]; after_results; rfl
theorem bi_arr (c : Dev nD) : (V m c main_v7 : S1x2048.Idx → EReal) = shapeCast S1x2048 (argBi m c) Facts₀.shapeCasts_S2048_S1x2048 := by
  dsimp only [Gen.V, Gen.hostOps0]; after_results; rfl
theorem bg_arr (c : Dev nD) : (V m c main_v8 : S1x2048.Idx → EReal) = shapeCast S1x2048 (argBg m c) Facts₀.shapeCasts_S2048_S1x2048 := by
  dsimp only [Gen.V, Gen.hostOps0]; after_results; rfl
theorem bo_arr (c : Dev nD) : (V m c main_v9 : S1x2048.Idx → EReal) = shapeCast S1x2048 (argBo m c) Facts₀.shapeCasts_S2048_S1x2048 := by
  dsimp only [Gen.V, Gen.hostOps0]; after_results; rfl

theorem bf_at (c : Dev nD) (u : Fin 1) (j : Fin 2048) : (V m c main_v6 : S1x2048.Idx → EReal) (ix2 u j) = argBf m c (ix1 j) := by
  rw [bf_arr]; exact shapeCast_a_1a_apply _ _ u j
theorem bi_at (c : Dev nD) (u : Fin 1) (j : Fin 2048) : (V m c main_v7 : S1x2048.Idx → EReal) (ix2 u j) = argBi m c (ix1 j) := by
  rw [bi_arr]; exact shapeCast_a_1a_apply _ _ u j
theorem bg_at (c : Dev nD) (u : Fin 1) (j : Fin 2048) : (V m c main_v8 : S1x2048.Idx → EReal) (ix2 u j) = argBg m c (ix1 j) := by
  rw [bg_arr]; exact shapeCast_a_1a_apply _ _ u j
theorem bo_at (c : Dev nD) (u : Fin 1) (j : Fin 2048) : (V m c main_v9 : S1x2048.Idx → EReal) (ix2 u j) = argBo m c (ix1 j) := by
  rw [bo_arr]; exact shapeCast_a_1a_apply _ _ u j

end Cert.KernelIdeal.Staged

end
-- ==== Proof.BlockReads.lean ====
/-
  The blocks a grid point stages, read entry by entry.

  Grid point `t` of the 8 × 8 grid works on rows `512·R … 512·R + 511` and units `256·Q … 256·Q + 255`, where
  `(R, Q)` is the block index of its output windows. It stages those rows of `[h | x]` (all 4096 columns), those
  rows of each weight matrix, those entries of each bias and that block of the cell state.
-/
import proofs.«107117_j34626026341075_1_alg».proof.Proof.Gen.KernelIdeal.Value
import proofs.«107117_j34626026341075_1_alg».proof.Proof.StagedArrays

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Staged

variable (m : (ℓ : Loc nD τ sig) → Buf (Elt Ideal) ℓ) (ρ : Dev nD → PrngReg)

/-- The staged blocks at a grid point, by their literal shapes. -/
abbrev blkA (c : Dev nD) (t : Fin cfg0.N) : Vec Ideal S512x4096 .bf16 := iblk m c 0 t
abbrev blkWf (c : Dev nD) (t : Fin cfg0.N) : Vec Ideal S256x4096 .bf16 := iblk m c 1 t
abbrev blkWi (c : Dev nD) (t : Fin cfg0.N) : Vec Ideal S256x4096 .bf16 := iblk m c 2 t
abbrev blkWg (c : Dev nD) (t : Fin cfg0.N) : Vec Ideal S256x4096 .bf16 := iblk m c 3 t
abbrev blkWo (c : Dev nD) (t : Fin cfg0.N) : Vec Ideal S256x4096 .bf16 := iblk m c 4 t
abbrev blkBf (c : Dev nD) (t : Fin cfg0.N) : Vec Ideal S1x256 .f32 := iblk m c 5 t
abbrev blkBi (c : Dev nD) (t : Fin cfg0.N) : Vec Ideal S1x256 .f32 := iblk m c 6 t
abbrev blkBg (c : Dev nD) (t : Fin cfg0.N) : Vec Ideal S1x256 .f32 := iblk m c 7 t
abbrev blkBo (c : Dev nD) (t : Fin cfg0.N) : Vec Ideal S1x256 .f32 := iblk m c 8 t
abbrev blkC (c : Dev nD) (t : Fin cfg0.N) : Vec Ideal S512x256 .f32 := iblk m c 9 t

/-- The index maps over the grid: the joined rows and the cell-state rows move with the output's row block, the
    weight rows, the bias entries and the cell-state units with the output's unit block. -/
theorem idx_facts : ∀ t : Fin cfg0.N,
    win0_0.index t (0 : Fin 2) = win0_11.index t (0 : Fin 2) ∧ win0_0.index t (1 : Fin 2) = 0
    ∧ win0_1.index t (0 : Fin 2) = win0_11.index t (1 : Fin 2) ∧ win0_1.index t (1 : Fin 2) = 0
    ∧ win0_2.index t (0 : Fin 2) = win0_11.index t (1 : Fin 2) ∧ win0_2.index t (1 : Fin 2) = 0
    ∧ win0_3.index t (0 : Fin 2) = win0_11.index t (1 : Fin 2) ∧ win0_3.index t (1 : Fin 2) = 0
    ∧ win0_4.index t (0 : Fin 2) = win0_11.index t (1 : Fin 2) ∧ win0_4.index t (1 : Fin 2) = 0
    ∧ win0_5.index t (0 : Fin 2) = 0 ∧ win0_5.index t (1 : Fin 2) = win0_11.index t (1 : Fin 2)
    ∧ win0_6.index t (0 : Fin 2) = 0 ∧ win0_6.index t (1 : Fin 2) = win0_11.index t (1 : Fin 2)
    ∧ win0_7.index t (0 : Fin 2) = 0 ∧ win0_7.index t (1 : Fin 2) = win0_11.index t (1 : Fin 2)
    ∧ win0_8.index t (0 : Fin 2) = 0 ∧ win0_8.index t (1 : Fin 2) = win0_11.index t (1 : Fin 2)
    ∧ win0_9.index t (0 : Fin 2) = win0_11.index t (0 : Fin 2) ∧ win0_9.index t (1 : Fin 2) = win0_11.index t (1 : Fin 2)
    ∧ win0_10.index t (0 : Fin 2) = win0_11.index t (0 : Fin 2) ∧ win0_10.index t (1 : Fin 2) = win0_11.index t (1 : Fin 2)
    ∧ win0_11.index t (0 : Fin 2) ≤ 7 ∧ win0_11.index t (1 : Fin 2) ≤ 7 :=
  (by decide +kernel : ∀ t : Fin grid0.N, _)

/-- Every block index of the 8 × 8 tiling is some grid point's. -/
theorem idx_onto : ∀ (R Q : Fin 8), ∃ t : Fin cfg0.N, win0_11.index t = ![R.val, Q.val] :=
  (by decide +kernel : ∀ (R Q : Fin 8), ∃ t : Fin grid0.N, win0_11.index t = ![R.val, Q.val])

/-- The joined block read at `(p, k)`: row `512·R + p` of `[h | x]`. -/
theorem blkA_at (c : Dev nD) (t : Fin cfg0.N) (p : Fin 512) (k : Fin 4096) (r : Fin 4096)
    (hr : r.val = win0_11.index t (0 : Fin 2) * 512 + p.val) :
    blkA m c t (ix2 p k) = CellSpec.joined (argH m c) (argX m c) r k := by
  obtain ⟨e0, e1, -⟩ := idx_facts t
  show (V m c main_v1 : S4096x4096.Idx → EReal) (((cfg0.win 0).blk t).view.emb (ix2 p k)) = _
  have he : ((cfg0.win 0).blk t).view.emb (ix2 p k) = ix2 r k := by
    funext a; apply Fin.ext
    match a with
    | ⟨0, _⟩ => show win0_0.index t (0 : Fin 2) * 512 + 1 * p.val = r.val; omega
    | ⟨1, _⟩ => show win0_0.index t (1 : Fin 2) * 4096 + 1 * k.val = k.val; omega
  rw [he, joined_at]

/-- A weight block read at `(q, k)`: row `256·Q + q` of that gate's weight matrix. -/
theorem blkWf_at (c : Dev nD) (t : Fin cfg0.N) (q : Fin 256) (k : Fin 4096) (j : Fin 2048)
    (hj : j.val = win0_11.index t (1 : Fin 2) * 256 + q.val) :
    blkWf m c t (ix2 q k) = argWf m c (ix2 j k) := by
  have F := idx_facts t
  show (V m c main_v2 : S2048x4096.Idx → EReal) (((cfg0.win 1).blk t).view.emb (ix2 q k)) = _
  have he : ((cfg0.win 1).blk t).view.emb (ix2 q k) = ix2 j k := by
    funext a; apply Fin.ext
    match a with
    | ⟨0, _⟩ => show win0_1.index t (0 : Fin 2) * 256 + 1 * q.val = j.val; omega
    | ⟨1, _⟩ => show win0_1.index t (1 : Fin 2) * 4096 + 1 * k.val = k.val; omega
  rw [he, wf_arr]

theorem blkWi_at (c : Dev nD) (t : Fin cfg0.N) (q : Fin 256) (k : Fin 4096) (j : Fin 2048)
    (hj : j.val = win0_11.index t (1 : Fin 2) * 256 + q.val) :
    blkWi m c t (ix2 q k) = argWi m c (ix2 j k) := by
  have F := idx_facts t
  show (V m c main_v3 : S2048x4096.Idx → EReal) (((cfg0.win 2).blk t).view.emb (ix2 q k)) = _
  have he : ((cfg0.win 2).blk t).view.emb (ix2 q k) = ix2 j k := by
    funext a; apply Fin.ext
    match a with
    | ⟨0, _⟩ => show win0_2.index t (0 : Fin 2) * 256 + 1 * q.val = j.val; omega
    | ⟨1, _⟩ => show win0_2.index t (1 : Fin 2) * 4096 + 1 * k.val = k.val; omega
  rw [he, wi_arr]

theorem blkWg_at (c : Dev nD) (t : Fin cfg0.N) (q : Fin 256) (k : Fin 4096) (j : Fin 2048)
    (hj : j.val = win0_11.index t (1 : Fin 2) * 256 + q.val) :
    blkWg m c t (ix2 q k) = argWg m c (ix2 j k) := by
  have F := idx_facts t
  show (V m c main_v4 : S2048x4096.Idx → EReal) (((cfg0.win 3).blk t).view.emb (ix2 q k)) = _
  have he : ((cfg0.win 3).blk t).view.emb (ix2 q k) = ix2 j k := by
    funext a; apply Fin.ext
    match a with
    | ⟨0, _⟩ => show win0_3.index t (0 : Fin 2) * 256 + 1 * q.val = j.val; omega
    | ⟨1, _⟩ => show win0_3.index t (1 : Fin 2) * 4096 + 1 * k.val = k.val; omega
  rw [he, wg_arr]

theorem blkWo_at (c : Dev nD) (t : Fin cfg0.N) (q : Fin 256) (k : Fin 4096) (j : Fin 2048)
    (hj : j.val = win0_11.index t (1 : Fin 2) * 256 + q.val) :
    blkWo m c t (ix2 q k) = argWo m c (ix2 j k) := by
  have F := idx_facts t
  show (V m c main_v5 : S2048x4096.Idx → EReal) (((cfg0.win 4).blk t).view.emb (ix2 q k)) = _
  have he : ((cfg0.win 4).blk t).view.emb (ix2 q k) = ix2 j k := by
    funext a; apply Fin.ext
    match a with
    | ⟨0, _⟩ => show win0_4.index t (0 : Fin 2) * 256 + 1 * q.val = j.val; omega
    | ⟨1, _⟩ => show win0_4.index t (1 : Fin 2) * 4096 + 1 * k.val = k.val; omega
  rw [he, wo_arr]

/-- A bias block read at `(0, q)`: entry `256·Q + q` of that gate's bias. -/
theorem blkBf_at (c : Dev nD) (t : Fin cfg0.N) (q : Fin 256) (j : Fin 2048)
    (hj : j.val = win0_11.index t (1 : Fin 2) * 256 + q.val) :
    blkBf m c t (ix2 (0 : Fin 1) q) = argBf m c (ix1 j) := by
  have F := idx_facts t
  show (V m c main_v6 : S1x2048.Idx → EReal) (((cfg0.win 5).blk t).view.emb (ix2 (0 : Fin 1) q)) = _
  have he : ((cfg0.win 5).blk t).view.emb (ix2 (0 : Fin 1) q) = ix2 (0 : Fin 1) j := by
    funext a; apply Fin.ext
    match a with
    | ⟨0, _⟩ => show win0_5.index t (0 : Fin 2) * 1 + 1 * 0 = 0; omega
    | ⟨1, _⟩ => show win0_5.index t (1 : Fin 2) * 256 + 1 * q.val = j.val; omega
  rw [he, bf_at]

theorem blkBi_at (c : Dev nD) (t : Fin cfg0.N) (q : Fin 256) (j : Fin 2048)
    (hj : j.val = win0_11.index t (1 : Fin 2) * 256 + q.val) :
    blkBi m c t (ix2 (0 : Fin 1) q) = argBi m c (ix1 j) := by
  have F := idx_facts t
  show (V m c main_v7 : S1x2048.Idx → EReal) (((cfg0.win 6).blk t).view.emb (ix2 (0 : Fin 1) q)) = _
  have he : ((cfg0.win 6).blk t).view.emb (ix2 (0 : Fin 1) q) = ix2 (0 : Fin 1) j := by
    funext a; apply Fin.ext
    match a with
    | ⟨0, _⟩ => show win0_6.index t (0 : Fin 2) * 1 + 1 * 0 = 0; omega
    | ⟨1, _⟩ => show win0_6.index t (1 : Fin 2) * 256 + 1 * q.val = j.val; omega
  rw [he, bi_at]

theorem blkBg_at (c : Dev nD) (t : Fin cfg0.N) (q : Fin 256) (j : Fin 2048)
    (hj : j.val = win0_11.index t (1 : Fin 2) * 256 + q.val) :
    blkBg m c t (ix2 (0 : Fin 1) q) = argBg m c (ix1 j) := by
  have F := idx_facts t
  show (V m c main_v8 : S1x2048.Idx → EReal) (((cfg0.win 7).blk t).view.emb (ix2 (0 : Fin 1) q)) = _
  have he : ((cfg0.win 7).blk t).view.emb (ix2 (0 : Fin 1) q) = ix2 (0 : Fin 1) j := by
    funext a; apply Fin.ext
    match a with
    | ⟨0, _⟩ => show win0_7.index t (0 : Fin 2) * 1 + 1 * 0 = 0; omega
    | ⟨1, _⟩ => show win0_7.index t (1 : Fin 2) * 256 + 1 * q.val = j.val; omega
  rw [he, bg_at]

theorem blkBo_at (c : Dev nD) (t : Fin cfg0.N) (q : Fin 256) (j : Fin 2048)
    (hj : j.val = win0_11.index t (1 : Fin 2) * 256 + q.val) :
    blkBo m c t (ix2 (0 : Fin 1) q) = argBo m c (ix1 j) := by
  have F := idx_facts t
  show (V m c main_v9 : S1x2048.Idx → EReal) (((cfg0.win 8).blk t).view.emb (ix2 (0 : Fin 1) q)) = _
  have he : ((cfg0.win 8).blk t).view.emb (ix2 (0 : Fin 1) q) = ix2 (0 : Fin 1) j := by
    funext a; apply Fin.ext
    match a with
    | ⟨0, _⟩ => show win0_8.index t (0 : Fin 2) * 1 + 1 * 0 = 0; omega
    | ⟨1, _⟩ => show win0_8.index t (1 : Fin 2) * 256 + 1 * q.val = j.val; omega
  rw [he, bo_at]

/-- The cell-state block read at `(p, q)`: the old cell state at row `512·R + p`, unit `256·Q + q`. -/
theorem blkC_at (c : Dev nD) (t : Fin cfg0.N) (p : Fin 512) (q : Fin 256) (r : Fin 4096) (j : Fin 2048)
    (hr : r.val = win0_11.index t (0 : Fin 2) * 512 + p.val) (hj : j.val = win0_11.index t (1 : Fin 2) * 256 + q.val) :
    blkC m c t (ix2 p q) = argC m c (ix2 r j) := by
  have F := idx_facts t
  show (V m c main_arg2 : S4096x2048.Idx → EReal) (((cfg0.win 9).blk t).view.emb (ix2 p q)) = _
  have he : ((cfg0.win 9).blk t).view.emb (ix2 p q) = ix2 r j := by
    funext a; apply Fin.ext
    match a with
    | ⟨0, _⟩ => show win0_9.index t (0 : Fin 2) * 512 + 1 * p.val = r.val; omega
    | ⟨1, _⟩ => show win0_9.index t (1 : Fin 2) * 256 + 1 * q.val = j.val; omega
  rw [he, V_main_arg2]

end Cert.KernelIdeal.Blocks

end
-- ==== Proof.GateBlock.lean ====
/-
  What the kernel body computes from its loaded blocks, entry by entry.

  At a grid point the body holds a 512 × 4096 block `a` of `[h | x]`, for each gate a 256 × 4096 block `w`
  of its weights and a 1 × 256 block `b` of its bias, and a 512 × 256 block of the cell state. Each gate's
  pre-activation block is `a · wᵀ + b`: at `(p, q)` the sum over `k` of `a(p, k) · w(q, k)`, plus `b(0, q)`.
-/
import proofs.«107117_j34626026341075_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.GateBlock

open Cert.KernelIdeal Cert.KernelIdeal.Gen Idealize.ShloMosaic Idealize.ShloMosaic.ValueIdx

/-- A gate's pre-activation inside a block, at row `p` and unit `q` of the block. -/
def pre (a : Vec Ideal S512x4096 .bf16) (w : Vec Ideal S256x4096 .bf16) (b : Vec Ideal S1x256 .f32) (p : Fin 512) (q : Fin 256) : EReal :=
  (∑ k : Fin 4096, a (ix2 p k) * w (ix2 q k)) + b (ix2 (0 : Fin 1) q)

theorem lhs_axis0 (i : S512x256.Idx) (κ : dot_S512x4096_S4096x256_S512x256_1_0_0_1_n_n.contr.Idx) :
    (dot_S512x4096_S4096x256_S512x256_1_0_0_1_n_n.lhsIdx i κ 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem lhs_axis1 (i : S512x256.Idx) (κ : dot_S512x4096_S4096x256_S512x256_1_0_0_1_n_n.contr.Idx) :
    (dot_S512x4096_S4096x256_S512x256_1_0_0_1_n_n.lhsIdx i κ 1).val = (κ ⟨0, by decide⟩).val :=
  dot_S512x4096_S4096x256_S512x256_1_0_0_1_n_n.lhsIdx_val_of_single rfl i κ
theorem rhs_axis0 (i : S512x256.Idx) (κ : dot_S512x4096_S4096x256_S512x256_1_0_0_1_n_n.contr.Idx) :
    (dot_S512x4096_S4096x256_S512x256_1_0_0_1_n_n.rhsIdx i κ 0).val = (κ ⟨0, by decide⟩).val :=
  dot_S512x4096_S4096x256_S512x256_1_0_0_1_n_n.rhsIdx_val_of_single rfl i κ
theorem rhs_axis1 (i : S512x256.Idx) (κ : dot_S512x4096_S4096x256_S512x256_1_0_0_1_n_n.contr.Idx) :
    (dot_S512x4096_S4096x256_S512x256_1_0_0_1_n_n.rhsIdx i κ 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- The block product into a zero accumulator, at `(p, q)`: the sum over the 4096 joined columns. -/
theorem matmul_at (a : FVec Ideal S512x4096 .bf16) (wT : FVec Ideal S4096x256 .bf16) (p : Fin 512) (q : Fin 256) :
    matmul dot_S512x4096_S4096x256_S512x256_1_0_0_1_n_n none a wT (constant S512x256 .f32 0x00000000#32) (ix2 p q)
      = ∑ k : Fin 4096, a (ix2 p k) * wT (ix2 k q) := by
  refine (Ideal.matmul_constant_zero_apply dot_S512x4096_S4096x256_S512x256_1_0_0_1_n_n none a wT (ix2 p q)).trans ?_
  rw [← Equiv.sum_comp (ValueIdx.contrEquiv1 dot_S512x4096_S4096x256_S512x256_1_0_0_1_n_n 4096 rfl rfl).symm]
  refine Finset.sum_congr rfl fun k _ => ?_
  have hk := ValueIdx.contrEquiv1_symm_val dot_S512x4096_S4096x256_S512x256_1_0_0_1_n_n 4096 rfl rfl k
  have el : dot_S512x4096_S4096x256_S512x256_1_0_0_1_n_n.lhsIdx (ix2 p q) ((ValueIdx.contrEquiv1 dot_S512x4096_S4096x256_S512x256_1_0_0_1_n_n 4096 rfl rfl).symm k) = ix2 p k := funext fun ax => Fin.ext (by
    match ax with
    | ⟨0, _⟩ => exact lhs_axis0 _ _
    | ⟨1, _⟩ => exact (lhs_axis1 _ _).trans hk)
  have er : dot_S512x4096_S4096x256_S512x256_1_0_0_1_n_n.rhsIdx (ix2 p q) ((ValueIdx.contrEquiv1 dot_S512x4096_S4096x256_S512x256_1_0_0_1_n_n 4096 rfl rfl).symm k) = ix2 k q := funext fun ax => Fin.ext (by
    match ax with
    | ⟨0, _⟩ => exact (rhs_axis0 _ _).trans hk
    | ⟨1, _⟩ => exact rhs_axis1 _ _)
  rw [el, er]

theorem logistic_at {s : Shape} {φ : FTy} (v : FVec Ideal s φ) (i : s.Idx) : logistic v i = Ideal.logistic (v i) := rfl
theorem tanh_at {s : Shape} {φ : FTy} (v : FVec Ideal s φ) (i : s.Idx) : tanh v i = Ideal.tanh (v i) := rfl

/-- The candidate gate's pre-activation block, as the body spells it — the joined block against the transposed
    weight block into a zero accumulator, plus the bias row broadcast down the rows — is `pre` at every entry. -/
theorem pay4_at (a : Vec Ideal S512x4096 .bf16) (w : Vec Ideal S256x4096 .bf16) (b : Vec Ideal S1x256 .f32) (p : Fin 512) (q : Fin 256) :
    k0_pay4 a w b (ix2 p q) = pre a w b p q := by
  unfold k0_pay4 k0_pay3 pre
  dsimp only
  rw [addf_apply, matmul_at, shapeCast_self, shapeCast_self, shapeCast_self, broadcastTo_1b_ab_apply]
  refine congrArg (· + b (ix2 (0 : Fin 1) q)) (Finset.sum_congr rfl fun k _ => ?_)
  rw [transpose_ix2_apply]

/-- The output gate's pre-activation block likewise. -/
theorem pay5_at (a : Vec Ideal S512x4096 .bf16) (w : Vec Ideal S256x4096 .bf16) (b : Vec Ideal S1x256 .f32) (p : Fin 512) (q : Fin 256) :
    k0_pay5 a w b (ix2 p q) = pre a w b p q := by
  unfold k0_pay5 k0_pay3 pre
  dsimp only
  rw [addf_apply, matmul_at, shapeCast_self, shapeCast_self, shapeCast_self, broadcastTo_1b_ab_apply]
  refine congrArg (· + b (ix2 (0 : Fin 1) q)) (Finset.sum_congr rfl fun k _ => ?_)
  rw [transpose_ix2_apply]

/-- The forget gate's block: the logistic function of its pre-activation. -/
theorem pay6_at (a : Vec Ideal S512x4096 .bf16) (w : Vec Ideal S256x4096 .bf16) (b : Vec Ideal S1x256 .f32) (p : Fin 512) (q : Fin 256) :
    k0_pay6 a w b (ix2 p q) = Ideal.logistic (pre a w b p q) := by
  unfold k0_pay6 k0_pay3 pre
  dsimp only
  rw [logistic_at, addf_apply, matmul_at, shapeCast_self, shapeCast_self, shapeCast_self, broadcastTo_1b_ab_apply]
  refine congrArg (fun z => Ideal.logistic (z + b (ix2 (0 : Fin 1) q))) (Finset.sum_congr rfl fun k _ => ?_)
  rw [transpose_ix2_apply]

/-- The input gate's block likewise. -/
theorem pay7_at (a : Vec Ideal S512x4096 .bf16) (w : Vec Ideal S256x4096 .bf16) (b : Vec Ideal S1x256 .f32) (p : Fin 512) (q : Fin 256) :
    k0_pay7 a w b (ix2 p q) = Ideal.logistic (pre a w b p q) := by
  unfold k0_pay7 k0_pay3 pre
  dsimp only
  rw [logistic_at, addf_apply, matmul_at, shapeCast_self, shapeCast_self, shapeCast_self, broadcastTo_1b_ab_apply]
  refine congrArg (fun z => Ideal.logistic (z + b (ix2 (0 : Fin 1) q))) (Finset.sum_congr rfl fun k _ => ?_)
  rw [transpose_ix2_apply]

/-- The stored cell-state block at `(p, q)`. -/
theorem cell_at (a : Vec Ideal S512x4096 .bf16) (wf wi wg : Vec Ideal S256x4096 .bf16) (bf bi bg : Vec Ideal S1x256 .f32)
    (c : Vec Ideal S512x256 .f32) (p : Fin 512) (q : Fin 256) :
    k0_pay1 (k0_pay4 a wg bg) (k0_pay6 a wf bf) (k0_pay7 a wi bi) c (ix2 p q)
      = Ideal.logistic (pre a wf bf p q) * c (ix2 p q) + Ideal.logistic (pre a wi bi p q) * Ideal.tanh (pre a wg bg p q) := by
  unfold k0_pay1
  rw [addf_apply, mulf_apply, mulf_apply, tanh_at, pay6_at, pay7_at, pay4_at]

/-- The stored hidden-state block at `(p, q)`. -/
theorem hidden_at (a : Vec Ideal S512x4096 .bf16) (wf wi wg wo : Vec Ideal S256x4096 .bf16) (bf bi bg bo : Vec Ideal S1x256 .f32)
    (c : Vec Ideal S512x256 .f32) (p : Fin 512) (q : Fin 256) :
    k0_pay2 (k0_pay4 a wg bg) (k0_pay5 a wo bo) (k0_pay6 a wf bf) (k0_pay7 a wi bi) c (ix2 p q)
      = Ideal.logistic (pre a wo bo p q)
        * Ideal.tanh (Ideal.logistic (pre a wf bf p q) * c (ix2 p q) + Ideal.logistic (pre a wi bi p q) * Ideal.tanh (pre a wg bg p q)) := by
  unfold k0_pay2
  rw [mulf_apply, logistic_at, tanh_at, pay5_at, cell_at]

end Cert.KernelIdeal.GateBlock

end
-- ==== Proof.KernelValue.lean ====
/-
  The kernel's two result arrays, as functions of the arguments.

  What grid point `t` writes back to the new cell state is, at row `512·R + p` and unit `256·Q + q`, exactly
  `σ(z_f) · c + σ(z_i) · tanh(z_g)` there, each pre-activation the sum over all 4096 joined columns plus its bias
  (nothing is accumulated across grid points: a block holds the whole contraction); and to the new hidden state
  `σ(z_o) · tanh` of that. The 64 blocks of 512 × 256 tile both 4096 × 2048 arrays, so after the run each array is
  the whole-array function.
-/
import proofs.«107117_j34626026341075_1_alg».proof.Proof.Gen.KernelIdeal.Value
import proofs.«107117_j34626026341075_1_alg».proof.Proof.BlockReads
import proofs.«107117_j34626026341075_1_alg».proof.Proof.GateBlock

set_option maxRecDepth 16384

noncomputable section

namespace Cert.KernelIdeal.Cell

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Staged Cert.KernelIdeal.GateBlock Cert.KernelIdeal.Blocks

variable (m : (ℓ : Loc nD τ sig) → Buf (Elt Ideal) ℓ) (ρ : Dev nD → PrngReg)

theorem hz : (![0, 0] : Fin 2 → Nat) = fun _ => 0 := funext fun a => by fin_cases a <;> rfl

/-- The new cell state and the new hidden state of the arguments as launched. -/
abbrev cellArr (c : Dev nD) : S4096x2048.Idx → EReal :=
  CellSpec.cellNext (argX m c) (argH m c) (argC m c) (argWf m c) (argBf m c) (argWi m c) (argBi m c) (argWg m c) (argBg m c)
abbrev hiddenArr (c : Dev nD) : S4096x2048.Idx → EReal :=
  CellSpec.hiddenNext (argX m c) (argH m c) (argC m c) (argWf m c) (argBf m c) (argWi m c) (argBi m c) (argWg m c) (argBg m c) (argWo m c) (argBo m c)

/-- A block's pre-activation is the whole-array one, once each staged entry is known to be the array's. -/
theorem pre_eq_gate (a : Vec Ideal S512x4096 .bf16) (w : Vec Ideal S256x4096 .bf16) (b : Vec Ideal S1x256 .f32)
    (h x : CellSpec.Act) (W : CellSpec.Wgt) (B : CellSpec.Bias) (p : Fin 512) (q : Fin 256) (r : Fin 4096) (j : Fin 2048)
    (ha : ∀ k, a (ix2 p k) = CellSpec.joined h x r k) (hw : ∀ k, w (ix2 q k) = W (ix2 j k))
    (hb : b (ix2 (0 : Fin 1) q) = B (ix1 j)) :
    pre a w b p q = CellSpec.gate h x W B r j := by
  unfold pre CellSpec.gate
  rw [hb]
  exact congrArg (· + B (ix1 j)) (Finset.sum_congr rfl fun k _ => by rw [ha k, hw k])

/-- The four gates' pre-activations at a grid point, entry `(p, q)` of the block, against the whole arrays. -/
theorem gates_at (c : Dev nD) (t : Fin cfg0.N) (p : Fin 512) (q : Fin 256) (r : Fin 4096) (j : Fin 2048)
    (hr : r.val = win0_11.index t (0 : Fin 2) * 512 + p.val) (hj : j.val = win0_11.index t (1 : Fin 2) * 256 + q.val) :
    pre (blkA m c t) (blkWf m c t) (blkBf m c t) p q = CellSpec.gate (argH m c) (argX m c) (argWf m c) (argBf m c) r j
    ∧ pre (blkA m c t) (blkWi m c t) (blkBi m c t) p q = CellSpec.gate (argH m c) (argX m c) (argWi m c) (argBi m c) r j
    ∧ pre (blkA m c t) (blkWg m c t) (blkBg m c t) p q = CellSpec.gate (argH m c) (argX m c) (argWg m c) (argBg m c) r j
    ∧ pre (blkA m c t) (blkWo m c t) (blkBo m c t) p q = CellSpec.gate (argH m c) (argX m c) (argWo m c) (argBo m c) r j :=
  ⟨pre_eq_gate _ _ _ _ _ _ _ p q r j (fun k => blkA_at m c t p k r hr) (fun k => blkWf_at m c t q k j hj) (blkBf_at m c t q j hj),
   pre_eq_gate _ _ _ _ _ _ _ p q r j (fun k => blkA_at m c t p k r hr) (fun k => blkWi_at m c t q k j hj) (blkBi_at m c t q j hj),
   pre_eq_gate _ _ _ _ _ _ _ p q r j (fun k => blkA_at m c t p k r hr) (fun k => blkWg_at m c t q k j hj) (blkBg_at m c t q j hj),
   pre_eq_gate _ _ _ _ _ _ _ p q r j (fun k => blkA_at m c t p k r hr) (fun k => blkWo_at m c t q k j hj) (blkBo_at m c t q j hj)⟩

/-! ## The new cell state (output window 11) -/

/-- WHAT POINT `t` WRITES BACK to the cell-state array is block `t` of the new cell state. -/
theorem flushed_cell (c : Dev nD) (t : Fin cfg0.N) :
    (dats m 0 c).flushed 11 t = ((cfg0.win 11).blk t).view.read (Elt Ideal) (cellArr m c) := by
  rw [Value.flushed11]
  unfold out0_11
  rw [View.canon_unit_zero hz]
  simp only [View.ld_unit_zero (S := S512x4096) hz, View.ld_unit_zero (S := S256x4096) hz, View.ld_unit_zero (S := S1x256) hz,
    View.ld_unit_zero (S := S512x256) hz]
  funext y
  obtain ⟨p, q, rfl⟩ : ∃ (p : Fin 512) (q : Fin 256), y = ix2 p q := ⟨y 0, y 1, eq_ix2 y⟩
  have F := idx_facts t
  have hR : win0_11.index t (0 : Fin 2) * 512 + p.val < 4096 := by have := p.isLt; omega
  have hQ : win0_11.index t (1 : Fin 2) * 256 + q.val < 2048 := by have := q.isLt; omega
  have he : ((cfg0.win 11).blk t).view.emb (ix2 p q) = ix2 (⟨_, hR⟩ : Fin 4096) (⟨_, hQ⟩ : Fin 2048) := by
    funext a; apply Fin.ext
    match a with
    | ⟨0, _⟩ => show win0_11.index t (0 : Fin 2) * 512 + 1 * p.val = win0_11.index t (0 : Fin 2) * 512 + p.val; omega
    | ⟨1, _⟩ => show win0_11.index t (1 : Fin 2) * 256 + 1 * q.val = win0_11.index t (1 : Fin 2) * 256 + q.val; omega
  show k0_pay1 (k0_pay4 (blkA m c t) (blkWg m c t) (blkBg m c t)) (k0_pay6 (blkA m c t) (blkWf m c t) (blkBf m c t))
      (k0_pay7 (blkA m c t) (blkWi m c t) (blkBi m c t)) (blkC m c t) (ix2 p q)
    = cellArr m c (((cfg0.win 11).blk t).view.emb (ix2 p q))
  rw [he]
  obtain ⟨gf, gi, gg, -⟩ := gates_at m c t p q ⟨_, hR⟩ ⟨_, hQ⟩ rfl rfl
  refine (cell_at (blkA m c t) (blkWf m c t) (blkWi m c t) (blkWg m c t) (blkBf m c t) (blkBi m c t) (blkBg m c t) (blkC m c t) p q).trans ?_
  rw [gf, gi, gg, blkC_at m c t p q ⟨_, hR⟩ ⟨_, hQ⟩ rfl rfl]
  rfl

/-- An index of the array is in point `t`'s block iff each coordinate is in the block's range on its axis. -/
theorem mem_blk_cell (t : Fin cfg0.N) (i : S4096x2048.Idx) :
    i ∈ ((cfg0.win 11).blk t).view.set ↔ ∀ a : Fin 2, win0_11.index t a * S512x256.size a ≤ (i a).val ∧ (i a).val < win0_11.index t a * S512x256.size a + S512x256.size a := by
  show i ∈ ((View.whole main_v10_1).slice (win0_11.rect t)).set ↔ _
  rw [View.set_slice_whole, Rect.mem_set_unit]
  exact Iff.rfl

/-- Every entry of the cell-state array lies in the block of the point whose block index is (row / 512, unit / 256). -/
theorem cover_cell (i : S4096x2048.Idx) :
    ∃ t : Fin cfg0.N, (cfg0.win 11).flush t = true ∧ i ∈ ((cfg0.win 11).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_11.index t (0 : Fin 2) = (i 0).val / 512 := congrFun ht 0
  have q1 : win0_11.index t (1 : Fin 2) = (i 1).val / 256 := congrFun ht 1
  refine ⟨t, flush0_11 t, ?_⟩
  rw [mem_blk_cell]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 256 ≤ (i 1).val ∧ (i 1).val < win0_11.index t (1 : Fin 2) * 256 + 256; omega

/-- THE CELL-STATE ARRAY after the run is the new cell state. -/
theorem final_cell (c : Dev nD) : (dats m 0 c).arrAt 11 cfg0.N = cellArr m c :=
  (dats m 0 c).arrAt_eq_of_cover 11 (cellArr m c) (fun t _ => flushed_cell m c t) cover_cell

/-! ## The new hidden state (output window 10) -/

/-- WHAT POINT `t` WRITES BACK to the hidden-state array is block `t` of the new hidden state. -/
theorem flushed_hidden (c : Dev nD) (t : Fin cfg0.N) :
    (dats m 0 c).flushed 10 t = ((cfg0.win 10).blk t).view.read (Elt Ideal) (hiddenArr m c) := by
  rw [Value.flushed10]
  unfold out0_10
  rw [View.canon_unit_zero hz]
  simp only [View.ld_unit_zero (S := S512x4096) hz, View.ld_unit_zero (S := S256x4096) hz, View.ld_unit_zero (S := S1x256) hz,
    View.ld_unit_zero (S := S512x256) hz]
  funext y
  obtain ⟨p, q, rfl⟩ : ∃ (p : Fin 512) (q : Fin 256), y = ix2 p q := ⟨y 0, y 1, eq_ix2 y⟩
  have F := idx_facts t
  have hR : win0_11.index t (0 : Fin 2) * 512 + p.val < 4096 := by have := p.isLt; omega
  have hQ : win0_11.index t (1 : Fin 2) * 256 + q.val < 2048 := by have := q.isLt; omega
  have he : ((cfg0.win 10).blk t).view.emb (ix2 p q) = ix2 (⟨_, hR⟩ : Fin 4096) (⟨_, hQ⟩ : Fin 2048) := by
    funext a; apply Fin.ext
    match a with
    | ⟨0, _⟩ => show win0_10.index t (0 : Fin 2) * 512 + 1 * p.val = win0_11.index t (0 : Fin 2) * 512 + p.val; omega
    | ⟨1, _⟩ => show win0_10.index t (1 : Fin 2) * 256 + 1 * q.val = win0_11.index t (1 : Fin 2) * 256 + q.val; omega
  show k0_pay2 (k0_pay4 (blkA m c t) (blkWg m c t) (blkBg m c t)) (k0_pay5 (blkA m c t) (blkWo m c t) (blkBo m c t))
      (k0_pay6 (blkA m c t) (blkWf m c t) (blkBf m c t)) (k0_pay7 (blkA m c t) (blkWi m c t) (blkBi m c t)) (blkC m c t) (ix2 p q)
    = hiddenArr m c (((cfg0.win 10).blk t).view.emb (ix2 p q))
  rw [he]
  obtain ⟨gf, gi, gg, go⟩ := gates_at m c t p q ⟨_, hR⟩ ⟨_, hQ⟩ rfl rfl
  refine (hidden_at (blkA m c t) (blkWf m c t) (blkWi m c t) (blkWg m c t) (blkWo m c t) (blkBf m c t) (blkBi m c t) (blkBg m c t) (blkBo m c t) (blkC m c t) p q).trans ?_
  rw [gf, gi, gg, go, blkC_at m c t p q ⟨_, hR⟩ ⟨_, hQ⟩ rfl rfl]
  rfl

theorem mem_blk_hidden (t : Fin cfg0.N) (i : S4096x2048.Idx) :
    i ∈ ((cfg0.win 10).blk t).view.set ↔ ∀ a : Fin 2, win0_10.index t a * S512x256.size a ≤ (i a).val ∧ (i a).val < win0_10.index t a * S512x256.size a + S512x256.size a := by
  show i ∈ ((View.whole main_v10_0).slice (win0_10.rect t)).set ↔ _
  rw [View.set_slice_whole, Rect.mem_set_unit]
  exact Iff.rfl

theorem cover_hidden (i : S4096x2048.Idx) :
    ∃ t : Fin cfg0.N, (cfg0.win 10).flush t = true ∧ i ∈ ((cfg0.win 10).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_11.index t (0 : Fin 2) = (i 0).val / 512 := congrFun ht 0
  have q1 : win0_11.index t (1 : Fin 2) = (i 1).val / 256 := congrFun ht 1
  have F := idx_facts t
  refine ⟨t, flush0_10 t, ?_⟩
  rw [mem_blk_hidden]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 256 ≤ (i 1).val ∧ (i 1).val < win0_10.index t (1 : Fin 2) * 256 + 256; omega

/-- THE HIDDEN-STATE ARRAY after the run is the new hidden state. -/
theorem final_hidden (c : Dev nD) : (dats m 0 c).arrAt 10 cfg0.N = hiddenArr m c :=
  (dats m 0 c).arrAt_eq_of_cover 10 (hiddenArr m c) (fun t _ => flushed_hidden m c t) cover_hidden

/-! ## The run -/

/-- Every weakly fair execution of the kernel program ends with the two result arrays at the new hidden state and
    the new cell state of the arguments, and the arguments unchanged. -/
theorem run : θ_run defs (onTc (τ := τ) (main (F := Ideal))) ⟨m, fun _ => 0, ρ⟩ fun r => ∀ c : Dev nD,
      r.2.mem ((c : Thread nD τ).loc main_v10_0) = hiddenArr m c
      ∧ r.2.mem ((c : Thread nD τ).loc main_v10_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final_hidden m c), (h c).2.1.trans (final_cell m c), (h c).2.2⟩)
    (Value.run_blocks m ρ)

end Cert.KernelIdeal.Cell

end
-- ==== Proof.RefCell.lean ====
/-
  The reference's two results are the same LSTM step.

  The reference stacks the four weight matrices into one 8192 × 4096 matrix and the four biases into one vector
  of 8192, multiplies `[h | x]` by the stacked matrix transposed, adds the stacked bias, and cuts the 8192
  columns back into the four gates. Column `2048·g + j` of the fused product is gate `g`'s pre-activation at
  unit `j`: row `2048·g + j` of the stacked matrix is row `j` of gate `g`'s weights, and likewise for the
  bias. The logistic function is spelt `1 / (1 + e^(-z))`, which is what it is on every extended real.
-/
import proofs.«107117_j34626026341075_1_alg».proof.Proof.Gen.ReferenceIdeal.Read
import proofs.«107117_j34626026341075_1_alg».proof.Proof.CellSpec
import Idealize.ShloMosaic.Lib.IdealHost

noncomputable section

namespace Cert.ReferenceIdeal.RefCell

open Cert.ReferenceIdeal Cert.ReferenceIdeal.Gen Cert.ReferenceIdeal.Read Idealize.ShloMosaic Idealize.ShloMosaic.TcCoe
open Idealize.ShloMosaic.ValueIdx

variable (x0 x1 x2 : (⟨S4096x2048, .f32⟩ : BufTy).Contents (Elt Ideal))
variable (x3 x5 x7 x9 : (⟨S2048x4096, .f32⟩ : BufTy).Contents (Elt Ideal))
variable (x4 x6 x8 x10 : (⟨S2048, .f32⟩ : BufTy).Contents (Elt Ideal))

/-- The joined array at `(r, k)` is `[h | x](r, k)`. -/
theorem joined_at (r k : Fin 4096) : val_main_v0 (F := Ideal) x0 x1 (ix2 r k) = CellSpec.joined x1 x0 r k := by
  unfold val_main_v0 CellSpec.joined
  split
  · next hk =>
    exact concatenate_pair_apply_left (t := S4096x4096) (s₁ := S4096x2048) (s₂ := S4096x2048) (1 : Fin 2) _ _ _ (ix2 r k) rfl
      (ix2 r (⟨k.val, hk⟩ : Fin 2048) : S4096x2048.Idx) (fun b => match b with | ⟨0, _⟩ => rfl | ⟨1, _⟩ => rfl)
  · next hk =>
    exact concatenate_pair_apply_right (t := S4096x4096) (s₁ := S4096x2048) (s₂ := S4096x2048) (1 : Fin 2) _ _ _ (ix2 r k) rfl rfl
      (ix2 r (⟨k.val - 2048, by have := k.isLt; omega⟩ : Fin 2048) : S4096x2048.Idx)
      (fun b hb => match b with | ⟨0, _⟩ => rfl | ⟨1, _⟩ => absurd rfl hb)
      (by show (k.val - 2048) + 2048 = k.val; omega)

/-! ## Rows of the stacked weights, entries of the stacked bias -/

theorem stackedW_f (j : Fin 2048) (k : Fin 4096) (row : Fin 8192) (hrow : row.val = j.val) :
    val_main_v1 (F := Ideal) x3 x5 x7 x9 (ix2 row k) = x3 (ix2 j k) := by
  unfold val_main_v1
  exact concatenate_apply_piece (t := S8192x4096) (0 : Fin 2) _ _ (ix2 row k) 0 (by show (0 : Nat) < 4; decide) S2048x4096 x3 rfl rfl 0 rfl
    (ix2 j k : S2048x4096.Idx) (fun b hb => match b with | ⟨0, _⟩ => absurd rfl hb | ⟨1, _⟩ => rfl) (by show 0 + j.val = row.val; omega)

theorem stackedW_i (j : Fin 2048) (k : Fin 4096) (row : Fin 8192) (hrow : row.val = 2048 + j.val) :
    val_main_v1 (F := Ideal) x3 x5 x7 x9 (ix2 row k) = x5 (ix2 j k) := by
  unfold val_main_v1
  exact concatenate_apply_piece (t := S8192x4096) (0 : Fin 2) _ _ (ix2 row k) 1 (by show (1 : Nat) < 4; decide) S2048x4096 x5 rfl rfl 2048 rfl
    (ix2 j k : S2048x4096.Idx) (fun b hb => match b with | ⟨0, _⟩ => absurd rfl hb | ⟨1, _⟩ => rfl) (by show 2048 + j.val = row.val; omega)

theorem stackedW_g (j : Fin 2048) (k : Fin 4096) (row : Fin 8192) (hrow : row.val = 4096 + j.val) :
    val_main_v1 (F := Ideal) x3 x5 x7 x9 (ix2 row k) = x7 (ix2 j k) := by
  unfold val_main_v1
  exact concatenate_apply_piece (t := S8192x4096) (0 : Fin 2) _ _ (ix2 row k) 2 (by show (2 : Nat) < 4; decide) S2048x4096 x7 rfl rfl 4096 rfl
    (ix2 j k : S2048x4096.Idx) (fun b hb => match b with | ⟨0, _⟩ => absurd rfl hb | ⟨1, _⟩ => rfl) (by show 4096 + j.val = row.val; omega)

theorem stackedW_o (j : Fin 2048) (k : Fin 4096) (row : Fin 8192) (hrow : row.val = 6144 + j.val) :
    val_main_v1 (F := Ideal) x3 x5 x7 x9 (ix2 row k) = x9 (ix2 j k) := by
  unfold val_main_v1
  exact concatenate_apply_piece (t := S8192x4096) (0 : Fin 2) _ _ (ix2 row k) 3 (by show (3 : Nat) < 4; decide) S2048x4096 x9 rfl rfl 6144 rfl
    (ix2 j k : S2048x4096.Idx) (fun b hb => match b with | ⟨0, _⟩ => absurd rfl hb | ⟨1, _⟩ => rfl) (by show 6144 + j.val = row.val; omega)

theorem stackedB_f (j : Fin 2048) (row : Fin 8192) (hrow : row.val = j.val) :
    val_main_v2 (F := Ideal) x4 x6 x8 x10 (ix1 row) = x4 (ix1 j) := by
  unfold val_main_v2
  exact concatenate_apply_piece (t := S8192) (0 : Fin 1) _ _ (ix1 row) 0 (by show (0 : Nat) < 4; decide) S2048 x4 rfl rfl 0 rfl
    (ix1 j : S2048.Idx) (fun b hb => match b with | ⟨0, _⟩ => absurd rfl hb) (by show 0 + j.val = row.val; omega)

theorem stackedB_i (j : Fin 2048) (row : Fin 8192) (hrow : row.val = 2048 + j.val) :
    val_main_v2 (F := Ideal) x4 x6 x8 x10 (ix1 row) = x6 (ix1 j) := by
  unfold val_main_v2
  exact concatenate_apply_piece (t := S8192) (0 : Fin 1) _ _ (ix1 row) 1 (by show (1 : Nat) < 4; decide) S2048 x6 rfl rfl 2048 rfl
    (ix1 j : S2048.Idx) (fun b hb => match b with | ⟨0, _⟩ => absurd rfl hb) (by show 2048 + j.val = row.val; omega)

theorem stackedB_g (j : Fin 2048) (row : Fin 8192) (hrow : row.val = 4096 + j.val) :
    val_main_v2 (F := Ideal) x4 x6 x8 x10 (ix1 row) = x8 (ix1 j) := by
  unfold val_main_v2
  exact concatenate_apply_piece (t := S8192) (0 : Fin 1) _ _ (ix1 row) 2 (by show (2 : Nat) < 4; decide) S2048 x8 rfl rfl 4096 rfl
    (ix1 j : S2048.Idx) (fun b hb => match b with | ⟨0, _⟩ => absurd rfl hb) (by show 4096 + j.val = row.val; omega)

theorem stackedB_o (j : Fin 2048) (row : Fin 8192) (hrow : row.val = 6144 + j.val) :
    val_main_v2 (F := Ideal) x4 x6 x8 x10 (ix1 row) = x10 (ix1 j) := by
  unfold val_main_v2
  exact concatenate_apply_piece (t := S8192) (0 : Fin 1) _ _ (ix1 row) 3 (by show (3 : Nat) < 4; decide) S2048 x10 rfl rfl 6144 rfl
    (ix1 j : S2048.Idx) (fun b hb => match b with | ⟨0, _⟩ => absurd rfl hb) (by show 6144 + j.val = row.val; omega)

/-! ## The fused product, column by column -/

/-- Column `col` of the fused pre-activations at row `r` is the gate's pre-activation at unit `j`, once row `col` of
    the stacked weights is known to be row `j` of `W` and entry `col` of the stacked bias entry `j` of `B`. -/
theorem fused_at (W : CellSpec.Wgt) (B : CellSpec.Bias) (r : Fin 4096) (col : Fin 8192) (j : Fin 2048)
    (hW : ∀ k : Fin 4096, val_main_v1 (F := Ideal) x3 x5 x7 x9 (ix2 col k) = W (ix2 j k))
    (hB : val_main_v2 (F := Ideal) x4 x6 x8 x10 (ix1 col) = B (ix1 j)) :
    val_main_v7 (F := Ideal) x0 x1 x3 x4 x5 x6 x7 x8 x9 x10 (ix2 r col) = CellSpec.gate x1 x0 W B r j := by
  rw [val_main_v7_apply, val_main_v4_apply, val_main_v6_apply, val_main_v5_apply]
  unfold CellSpec.gate
  have eb : idx_main_v5 (idx_main_v6 (ix2 r col)) = ix1 col := funext fun a => Fin.ext (by match a with | ⟨0, _⟩ => rfl)
  rw [eb, hB]
  refine congrArg (· + B (ix1 j)) (Finset.sum_congr rfl fun k _ => ?_)
  have el : lidx_main_v4 (ix2 r col) k = ix2 r k := funext fun a => Fin.ext (by match a with | ⟨0, _⟩ => rfl | ⟨1, _⟩ => rfl)
  have er : idx_main_v3 (ridx_main_v4 (ix2 r col) k) = ix2 col k := funext fun a => Fin.ext (by match a with | ⟨0, _⟩ => rfl | ⟨1, _⟩ => rfl)
  rw [el, val_main_v3_apply, er, joined_at, hW]

/-- `1 / (1 + e^(-z))`, with both ones the f32 word of one, is the logistic function of `z`. -/
theorem sigmoid_eq (z : EReal) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  show Ideal.div (Ideal.ofBits .f32 0x3F800000#32) (Ideal.ofBits .f32 0x3F800000#32 + Ideal.exp (-z)) = _
  rw [Ideal.ofBits_one_f32]
  rfl

/-! ## The four gates -/

theorem forget_at (r : Fin 4096) (j : Fin 2048) :
    val_main_v17 (F := Ideal) x0 x1 x3 x4 x5 x6 x7 x8 x9 x10 (ix2 r j) = Ideal.logistic (CellSpec.gate x1 x0 x3 x4 r j) := by
  rw [val_main_v17_apply, val_main_v16_apply, val_main_cst_0_apply, val_main_v15_apply, val_main_v14_apply, val_main_cst_apply,
    val_main_v13_apply, val_main_v12_apply, val_main_v8_apply]
  have e : idx_main_v8 (ix2 r j) = ix2 r (⟨j.val, by have := j.isLt; omega⟩ : Fin 8192) :=
    funext fun a => Fin.ext (by match a with | ⟨0, _⟩ => rfl | ⟨1, _⟩ => rfl)
  rw [e, fused_at x0 x1 x3 x5 x7 x9 x4 x6 x8 x10 x3 x4 r _ j (fun k => stackedW_f x3 x5 x7 x9 j k _ rfl) (stackedB_f x4 x6 x8 x10 j _ rfl)]
  exact sigmoid_eq _

theorem input_at (r : Fin 4096) (j : Fin 2048) :
    val_main_v23 (F := Ideal) x0 x1 x3 x4 x5 x6 x7 x8 x9 x10 (ix2 r j) = Ideal.logistic (CellSpec.gate x1 x0 x5 x6 r j) := by
  rw [val_main_v23_apply, val_main_v22_apply, val_main_cst_2_apply, val_main_v21_apply, val_main_v20_apply, val_main_cst_1_apply,
    val_main_v19_apply, val_main_v18_apply, val_main_v9_apply]
  have e : idx_main_v9 (ix2 r j) = ix2 r (⟨2048 + j.val, by have := j.isLt; omega⟩ : Fin 8192) :=
    funext fun a => Fin.ext (by match a with | ⟨0, _⟩ => rfl | ⟨1, _⟩ => rfl)
  rw [e, fused_at x0 x1 x3 x5 x7 x9 x4 x6 x8 x10 x5 x6 r _ j (fun k => stackedW_i x3 x5 x7 x9 j k _ rfl) (stackedB_i x4 x6 x8 x10 j _ rfl)]
  exact sigmoid_eq _

theorem candidate_at (r : Fin 4096) (j : Fin 2048) :
    val_main_v24 (F := Ideal) x0 x1 x3 x4 x5 x6 x7 x8 x9 x10 (ix2 r j) = Ideal.tanh (CellSpec.gate x1 x0 x7 x8 r j) := by
  rw [val_main_v24_apply, val_main_v10_apply]
  have e : idx_main_v10 (ix2 r j) = ix2 r (⟨4096 + j.val, by have := j.isLt; omega⟩ : Fin 8192) :=
    funext fun a => Fin.ext (by match a with | ⟨0, _⟩ => rfl | ⟨1, _⟩ => rfl)
  rw [e, fused_at x0 x1 x3 x5 x7 x9 x4 x6 x8 x10 x7 x8 r _ j (fun k => stackedW_g x3 x5 x7 x9 j k _ rfl) (stackedB_g x4 x6 x8 x10 j _ rfl)]
  rfl

theorem output_at (r : Fin 4096) (j : Fin 2048) :
    val_main_v30 (F := Ideal) x0 x1 x3 x4 x5 x6 x7 x8 x9 x10 (ix2 r j) = Ideal.logistic (CellSpec.gate x1 x0 x9 x10 r j) := by
  rw [val_main_v30_apply, val_main_v29_apply, val_main_cst_4_apply, val_main_v28_apply, val_main_v27_apply, val_main_cst_3_apply,
    val_main_v26_apply, val_main_v25_apply, val_main_v11_apply]
  have e : idx_main_v11 (ix2 r j) = ix2 r (⟨6144 + j.val, by have := j.isLt; omega⟩ : Fin 8192) :=
    funext fun a => Fin.ext (by match a with | ⟨0, _⟩ => rfl | ⟨1, _⟩ => rfl)
  rw [e, fused_at x0 x1 x3 x5 x7 x9 x4 x6 x8 x10 x9 x10 r _ j (fun k => stackedW_o x3 x5 x7 x9 j k _ rfl) (stackedB_o x4 x6 x8 x10 j _ rfl)]
  exact sigmoid_eq _

/-! ## The two results -/

/-- The reference's second result is the new cell state. -/
theorem cell_eq : val_main_v33 (F := Ideal) x0 x1 x2 x3 x4 x5 x6 x7 x8 x9 x10 = CellSpec.cellNext x0 x1 x2 x3 x4 x5 x6 x7 x8 := by
  funext i
  obtain ⟨r, j, rfl⟩ : ∃ (r : Fin 4096) (j : Fin 2048), i = ix2 r j := ⟨i 0, i 1, eq_ix2 i⟩
  rw [val_main_v33_apply, val_main_v31_apply, val_main_v32_apply, forget_at, input_at, candidate_at]
  rfl

/-- The reference's first result is the new hidden state. -/
theorem hidden_eq : val_main_v35 (F := Ideal) x0 x1 x2 x3 x4 x5 x6 x7 x8 x9 x10 = CellSpec.hiddenNext x0 x1 x2 x3 x4 x5 x6 x7 x8 x9 x10 := by
  funext i
  obtain ⟨r, j, rfl⟩ : ∃ (r : Fin 4096) (j : Fin 2048), i = ix2 r j := ⟨i 0, i 1, eq_ix2 i⟩
  rw [val_main_v35_apply, val_main_v34_apply, output_at, cell_eq]
  rfl

end Cert.ReferenceIdeal.RefCell

end
-- ==== Proof.lean ====
/-
  The certificate of an LSTM cell step: a Pallas kernel on an 8 × 8 grid of 512 × 256 blocks against a plain jnp
  reference.

  Over the extended reals both programs compute, for every row `r` and unit `j`,
      c'(r, j) = σ(z_f) · c(r, j) + σ(z_i) · tanh(z_g),      h'(r, j) = σ(z_o) · tanh(c'(r, j)),
  where each gate's pre-activation is `z(r, j) = Σ_k [h | x](r, k) · W(j, k) + b(j)` over the 4096 joined columns
  (Proof/CellSpec.lean). The kernel narrows `[h | x]` and the weights to bf16 first, which changes no value here,
  multiplies a block of rows by a transposed block of each gate's weights with the whole contraction resident, and
  applies the logistic function as one operation (Proof/GateBlock.lean, Proof/BlockReads.lean,
  Proof/KernelValue.lean). The reference fuses the four products into one against the stacked weights, cuts the
  columns back into gates, and spells the logistic function `1 / (1 + e^(-z))` (Proof/RefCell.lean). The two sums run
  over the same index in the same order, so no law of the extended reals beyond reading both sides entry by entry is
  needed, and the finiteness of the inputs is never used.

  The three frames are the generated ones (the reference's is its generated run with the results dropped); the
  idealization rewrote nothing, so `preserves` is trivial.
-/
import proofs.«107117_j34626026341075_1_alg».proof.Defs
import proofs.«107117_j34626026341075_1_alg».proof.Proof.Gen.Kernel
import proofs.«107117_j34626026341075_1_alg».proof.Proof.Gen.Kernel.Skeleton
import proofs.«107117_j34626026341075_1_alg».proof.Proof.Gen.Kernel.Launch
import proofs.«107117_j34626026341075_1_alg».proof.Proof.Gen.Kernel.Points
import proofs.«107117_j34626026341075_1_alg».proof.Proof.Gen.Kernel.Frame
import proofs.«107117_j34626026341075_1_alg».proof.Proof.Gen.KernelIdeal
import proofs.«107117_j34626026341075_1_alg».proof.Proof.Gen.KernelIdeal.Skeleton
import proofs.«107117_j34626026341075_1_alg».proof.Proof.Gen.KernelIdeal.Launch
import proofs.«107117_j34626026341075_1_alg».proof.Proof.Gen.KernelIdeal.Points
import proofs.«107117_j34626026341075_1_alg».proof.Proof.Gen.KernelIdeal.Frame
import proofs.«107117_j34626026341075_1_alg».proof.Proof.Gen.ReferenceIdeal
import proofs.«107117_j34626026341075_1_alg».proof.Proof.Gen.Pre_finite_inputs
import proofs.«107117_j34626026341075_1_alg».proof.Proof.Gen.KernelIdeal.Value
import proofs.«107117_j34626026341075_1_alg».proof.Proof.Gen.ReferenceIdeal.Run
import proofs.«107117_j34626026341075_1_alg».proof.Proof.Gen.ReferenceIdeal.Read
import proofs.«107117_j34626026341075_1_alg».proof.Proof.KernelValue
import proofs.«107117_j34626026341075_1_alg».proof.Proof.RefCell
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the new hidden state and the new cell state of the arguments, which agree. -/
theorem algebraic : Cert.algebraic_KernelIdeal_ReferenceIdeal := by
  intro m ρ m' ρ' _ hagree
  refine ⟨fun c => Cert.KernelIdeal.Cell.hiddenArr m c, fun c => Cert.KernelIdeal.Cell.cellArr m c, Cert.KernelIdeal.Cell.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v35_eq, Cert.ReferenceIdeal.RefCell.hidden_eq, a0, a1, a2, a3, a4, a5, a6, a7, a8, a9, a10]
  · obtain ⟨a0, a1, a2, a3, a4, a5, a6, a7, a8, a9, a10⟩ := hagree c
    rw [Cert.ReferenceIdeal.Read.val_main_v33_eq, Cert.ReferenceIdeal.RefCell.cell_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
